-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩
abbrev S1x1600000 : Shape := ⟨2, ![1, 1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x1600000_S1x1600000_0_0 : S2x1600000.Slices ![0, 0] S1x1600000
  shapeCasts_S1x1600000_S1600000 : S1x1600000.ShapeCasts S1600000

variable [Facts]

def fn_part1 {F : FTy → Type} [FloatOps F] (main_arg1 : IVec S2x1600000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : IVec S1x1600000 32 := (extractStridedSlice S1x1600000 ![0, 0] · slices_S2x1600000_S1x1600000_0_0) main_arg1
  let main_v20 : IVec S1600000 32 := shapeCast S1600000 main_v19 shapeCasts_S1x1600000_S1600000
  let main_c_6 : IVec S_ 32 := constantI S_ 32 4294867296#32
  let main_v21 : IVec S1600000 32 := broadcastInDim S1600000 ![] bcast_S_S1600000 main_c_6
  let main_v22 : IVec S1600000 1 := cmpi .sge main_v20 main_v21
  let main_v23 : IVec S1x1600000 32 := (extractStridedSlice S1x1600000 ![0, 0] · slices_S2x1600000_S1x1600000_0_0) main_arg1
  let main_v24 : IVec S1600000 32 := shapeCast S1600000 main_v23 shapeCasts_S1x1600000_S1600000
  let main_c_7 : IVec S_ 32 := constantI S_ 32 100000#32
  let main_v25 : IVec S1600000 32 := broadcastInDim S1600000 ![] bcast_S_S1600000 main_c_7
  let main_v26 : IVec S1600000 1 := cmpi .slt main_v24 main_v25
  let main_v27 : IVec S1600000 1 := andi main_v22 main_v26
  let main_c_8 : IVec S_ 1 := constantI S_ 1 1#1
  let main_v28 : IVec S_ 1 := (fun x v => Host.reduce IntOp.andi x v reducesTo_S1600000_S_d0 h_S_) main_v27 main_c_8
  let main_v29 : IVec S_ 1 := andi main_v18 main_v28
  main_v29

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S5000x128 : Shape := ⟨2, ![5000, 128]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S8000x128 : Shape := ⟨2, ![8000, 128]⟩
abbrev S8000x1 : Shape := ⟨2, ![8000, 1]⟩
abbrev S1x128 : Shape := ⟨2, ![1, 128]⟩

abbrev nBuf : Space → Nat
  | .hbm => 40
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000x128, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1, .i32⟩
  | .hbm, ⟨19, _⟩ => ⟨S_, .i32⟩
  | .hbm, ⟨20, _⟩ => ⟨S1600000x1, .i32⟩
  | .hbm, ⟨21, _⟩ => ⟨S1600000x1, .i1⟩
  | .hbm, ⟨22, _⟩ => ⟨S1x1, .i32⟩
  | .hbm, ⟨23, _⟩ => ⟨S1600000x1, .i32⟩
  | .hbm, ⟨24, _⟩ => ⟨S1600000x1, .i1⟩
  | .hbm, ⟨25, _⟩ => ⟨S1600000x1, .i1⟩
  | .hbm, ⟨26, _⟩ => ⟨S_, .i1⟩
  | .hbm, ⟨27, _⟩ => ⟨S1600000, .i1⟩
  | .hbm, ⟨28, _⟩ => ⟨S1600000x128, .f32⟩
  | .hbm, ⟨29, _⟩ => ⟨S1600000x128, .i1⟩
  | .hbm, ⟨30, _⟩ => ⟨S_, .f32⟩
  | .hbm, ⟨31, _⟩ => ⟨S1600000x128, .f32⟩
  | .hbm, ⟨32, _⟩ => ⟨S1600000x128, .f32⟩
  | .hbm, ⟨33, _⟩ => ⟨S1600000x1, .f32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S8000x128, .f32⟩
  | .local _ .vmem, ⟨6, _⟩ => ⟨S8000x128, .f32⟩
  | .local _ .vmem, ⟨7, _⟩ => ⟨S8000x1, .f32⟩
  | .local _ .vmem, ⟨8, _⟩ => ⟨S8000x1, .f32⟩
  | .local _ .vmem, ⟨9, _⟩ => ⟨S8000x128, .f32⟩
  | .local _ .vmem, ⟨10, _⟩ => ⟨S8000x128, .f32⟩
  | .local _ .vmem, ⟨11, _⟩ => ⟨S5000x128, .f32⟩
  | .local _ .vmem, ⟨12, _⟩ => ⟨S5000x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  shapeCasts_S1600000_S1600000x1 : S1600000.ShapeCasts S1600000x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S1600000x128.size a
  hwx1_0 : ∀ i : grid1.Coords, EltTy.bits .f32 = 32 ∨ (Rect.block (s := S1600000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1600000x1.size a
  hwx1_1 : ∀ i : grid1.Coords, EltTy.bits .f32 = 32 ∨ (Rect.block (s := S1600000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S1600000x128.size a
  hwx1_2 : ∀ i : grid1.Coords, EltTy.bits .f32 = 32 ∨ (Rect.block (s := S1600000x128) S8000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v10) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S100000x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x1, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S_, .f32⟩
  | .hbm, ⟨30, _⟩ => ⟨S100000x128, .f32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S100000x128, .f32⟩
  | .hbm, ⟨38, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_call0_cst : Ref sig .tc := ⟨.hbm, 32, rfl⟩
abbrev main_call0_v0 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Matmul.lean ====
/-
  The first kernel region, read as a whole array.  Grid point t (20 of them) takes rows
  5000·t … 5000·t + 4999 of `x` and the whole of `W`, rounds both to bf16 (no change over the extended
  reals) and writes back their matrix product accumulated from zero: entry (r, j) of the block is
  Σ_k x[r, k] · W[k, j].  The 20 blocks tile the 100000 rows, so after the region the output array is the
  one function `product x W` — the full product — of the two input arrays as the region found them.
-/
import proofs.«427640_j14697378087201_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Matmul

open Cert.KernelIdeal Cert.KernelIdeal.Gen Idealize.ShloMosaic Idealize.ShloMosaic.TcCoe Idealize.SL.Sem
open Idealize.ShloMosaic.ValueIdx Idealize.ShloMosaic.Pipeline

variable (V : (c : Dev nD) → (b : Ref sig .tc) → Buf (Elt Ideal) ((c : Thread nD τ).loc b))

/-- The two factors as the region finds them, at their literal types. -/
abbrev xIn (c : Dev nD) : FVec Ideal S100000x128 .f32 := V c main_arg0
abbrev wIn (c : Dev nD) : FVec Ideal S128x128 .f32 := V c main_arg3

theorem zeros2 : (![0, 0] : Fin 2 → Nat) = fun _ => 0 := funext fun a => by fin_cases a <;> rfl

/-- The entry (row of `i`, k) of the left factor and (k, column of `i`) of the right one. -/
abbrev lrow (i : S100000x128.Idx) (k : Fin 128) : S100000x128.Idx := fun a => match a with
  | ⟨0, _⟩ => ⟨(i 0).val, (i 0).isLt⟩
  | ⟨1, _⟩ => ⟨k.val, k.isLt⟩
abbrev rcol (i : S100000x128.Idx) (k : Fin 128) : S128x128.Idx := fun a => match a with
  | ⟨0, _⟩ => ⟨k.val, k.isLt⟩
  | ⟨1, _⟩ => ⟨(i 1).val, (i 1).isLt⟩

/-- The matrix product, entry by entry: Σ_k x[r, k] · W[k, j]. -/
abbrev product (x : FVec Ideal S100000x128 .f32) (W : FVec Ideal S128x128 .f32) : FVec Ideal S100000x128 .f32 :=
  fun i => ∑ k : Fin 128, x (lrow i k) * W (rcol i k)

/-! The block's own contraction: which entries of the two loaded blocks the product at `j` multiplies. -/

theorem lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

abbrev lblk (j : S5000x128.Idx) (k : Fin 128) : S5000x128.Idx := fun a => match a with
  | ⟨0, _⟩ => ⟨(j 0).val, (j 0).isLt⟩
  | ⟨1, _⟩ => ⟨k.val, k.isLt⟩
abbrev rblk (j : S5000x128.Idx) (k : Fin 128) : S128x128.Idx := fun a => match a with
  | ⟨0, _⟩ => ⟨k.val, k.isLt⟩
  | ⟨1, _⟩ => ⟨(j 1).val, (j 1).isLt⟩

/-- The body's arithmetic at one entry of a block: the sum over the 128 contracted positions. -/
theorem pay_apply (x0 : Vec Ideal S5000x128 .f32) (x1 : Vec Ideal S128x128 .f32) (j : S5000x128.Idx) :
    k0_pay1 x0 x1 j = ∑ k : Fin 128, x0 (lblk j k) * x1 (rblk j k) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = lblk j k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((ValueIdx.contrEquiv1 dot_S5000x128_S128x128_S5000x128_1_0_0_1_n_n 128 rfl rfl).symm k) = rblk j k := funext fun a => Fin.ext (by
    match a with
    | ⟨0, _⟩ => exact (rhs_0 _ _).trans hk
    | ⟨1, _⟩ => exact rhs_1 _ _)
  rw [el, er]
  rfl

/-- The windows' index maps over the grid: the row windows move with the point, `W`'s window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the full product. -/
theorem flushed_eq (c : Dev nD) (t : Fin cfg0.N) :
    (dat0 V c).flushed 2 t = ((cfg0.win 2).blk t).view.read (Elt Ideal) (product (xIn V c) (wIn V c)) := by
  show (cfg0.win 2).cut (grid0.coords t) ((dat0 V c).after 2 t) = _
  rw [after0_2]
  unfold out0_2
  rw [View.canon_unit_zero zeros2]
  simp only [View.ld_unit_zero (S := S5000x128) zeros2, View.ld_unit_zero (S := S128x128) zeros2]
  obtain ⟨e0, e1, e2, e3, e4, e5⟩ := idx_facts t
  funext j
  obtain ⟨p, q, rfl⟩ : ∃ (p : Fin 5000) (q : Fin 128), j = ix2 p q := ⟨j 0, j 1, eq_ix2 j⟩
  refine (pay_apply (iblk0 V c 0 t) (iblk0 V c 1 t) (ix2 p q)).trans ?_
  show (∑ k : Fin 128, xIn V c (((cfg0.win 0).blk t).view.emb (lblk (ix2 p q) k)) * wIn V c (((cfg0.win 1).blk t).view.emb (rblk (ix2 p q) k)))
    = ∑ k : Fin 128, xIn V c (lrow (((cfg0.win 2).blk t).view.emb (ix2 p q)) k) * wIn V c (rcol (((cfg0.win 2).blk t).view.emb (ix2 p q)) k)
  refine Finset.sum_congr rfl fun k _ => ?_
  have h0 : ((cfg0.win 0).blk t).view.emb (lblk (ix2 p q) k) = lrow (((cfg0.win 2).blk t).view.emb (ix2 p q)) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (rblk (ix2 p q) k) = rcol (((cfg0.win 2).blk t).view.emb (ix2 p q)) k := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]

/-- An index of the output array lies in point `t`'s block iff each coordinate is in the block's range. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- Every row lies in the block of the point `row / 5000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 5000, by rw [show cfg0.N = 20 from N_0]; omega⟩, flush0_2 _, ?_⟩
  rw [mem_blk]
  obtain ⟨-, -, -, -, e4, e5⟩ := idx_facts ⟨(i 0).val / 5000, by rw [show cfg0.N = 20 from N_0]; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e5]; omega

/-- The output array after the region: the full product. -/
theorem final (c : Dev nD) : (dat0 V c).arrAt 2 cfg0.N = product (xIn V c) (wIn V c) :=
  (dat0 V c).arrAt_eq_of_cover 2 _ (fun t _ => flushed_eq V c t) cover

end Cert.KernelIdeal.Matmul

end
-- ==== Proof.Scale.lean ====
/-
  The second kernel region, read as a whole array.  Each grid point t (200 of them) takes rows
  8000·t … 8000·t + 7999 of the gathered rows `h` and of the one-column weight array `w`, and writes
  back the product `h[e, j] · w[e, 0]`.  The 200 blocks tile the 1600000 rows, so after the region the
  output array is the one function `scaled h w` of the two input arrays as the region found them.
-/
import proofs.«427640_j14697378087201_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Scale

open Cert.KernelIdeal Cert.KernelIdeal.Gen Idealize.ShloMosaic Idealize.ShloMosaic.TcCoe Idealize.SL.Sem
open Idealize.ShloMosaic.ValueIdx Idealize.ShloMosaic.Pipeline

variable (V : (c : Dev nD) → (b : Ref sig .tc) → Buf (Elt Ideal) ((c : Thread nD τ).loc b))

/-- The gathered rows and the weight column as the region finds them, at their literal types. -/
abbrev rowsIn (c : Dev nD) : FVec Ideal S1600000x128 .f32 := V c main_v5
abbrev wIn (c : Dev nD) : FVec Ideal S1600000x1 .f32 := V c main_v6

theorem zeros2 : (![0, 0] : Fin 2 → Nat) = fun _ => 0 := funext fun a => by fin_cases a <;> rfl

/-- Row `e` of `h`, every entry multiplied by the `e`-th weight. -/
abbrev scaled (h : FVec Ideal S1600000x128 .f32) (w : FVec Ideal S1600000x1 .f32) : FVec Ideal S1600000x128 .f32 :=
  fun i => h i * w (ix2 (i 0) (0 : Fin 1))

/-- The body's arithmetic at one entry of a block: the entry of the row block times the row's weight. -/
theorem pay_apply (x0 : Vec Ideal S8000x128 .f32) (x1 : Vec Ideal S8000x1 .f32) (p : Fin 8000) (q : Fin 128) :
    k1_pay1 x0 x1 (ix2 p q) = x0 (ix2 p q) * x1 (ix2 p (0 : Fin 1)) := by
  unfold k1_pay1
  rw [mulf_apply, shapeCast_self, shapeCast_self]
  refine congrArg (x0 (ix2 p q) * ·) ?_
  refine broadcastTo_apply x1 _ (ix2 p q) (ix2 p (0 : Fin 1)) fun ax => ?_
  match ax with
  | ⟨0, _⟩ => rfl
  | ⟨1, _⟩ => rfl

/-- The three windows' index maps over the grid: all three move with the point along the rows and stay
    at column block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `scaled` of the two input arrays. -/
theorem flushed_eq (c : Dev nD) (t : Fin cfg1.N) :
    (dat1 V c).flushed 2 t = ((cfg1.win 2).blk t).view.read (Elt Ideal) (scaled (rowsIn V c) (wIn V c)) := by
  show (cfg1.win 2).cut (grid1.coords t) ((dat1 V c).after 2 t) = _
  rw [after1_2]
  unfold out1_2
  rw [View.canon_unit_zero zeros2]
  simp only [View.ld_unit_zero (S := S8000x128) zeros2, View.ld_unit_zero (S := S8000x1) zeros2]
  obtain ⟨e0, e1, e2, e3, e4, e5⟩ := idx_facts t
  funext j
  obtain ⟨p, q, rfl⟩ : ∃ (p : Fin 8000) (q : Fin 128), j = ix2 p q := ⟨j 0, j 1, eq_ix2 j⟩
  refine (pay_apply (iblk1 V c 0 t) (iblk1 V c 1 t) p q).trans ?_
  show rowsIn V c (((cfg1.win 0).blk t).view.emb (ix2 p q)) * wIn V c (((cfg1.win 1).blk t).view.emb (ix2 p (0 : Fin 1)))
    = rowsIn V c (((cfg1.win 2).blk t).view.emb (ix2 p q)) * wIn V c (ix2 ((((cfg1.win 2).blk t).view.emb (ix2 p q)) 0) (0 : Fin 1))
  have h0 : ((cfg1.win 0).blk t).view.emb (ix2 p q) = ((cfg1.win 2).blk t).view.emb (ix2 p q) := by
    funext a; apply Fin.ext
    match a with
    | ⟨0, _⟩ => show win1_0.index t (0 : Fin 2) * 8000 + 1 * p.val = win1_2.index t (0 : Fin 2) * 8000 + 1 * p.val; omega
    | ⟨1, _⟩ => show win1_0.index t (1 : Fin 2) * 128 + 1 * q.val = win1_2.index t (1 : Fin 2) * 128 + 1 * q.val; omega
  have h1 : ((cfg1.win 1).blk t).view.emb (ix2 p (0 : Fin 1)) = ix2 ((((cfg1.win 2).blk t).view.emb (ix2 p q)) 0) (0 : Fin 1) := by
    funext a; apply Fin.ext
    match a with
    | ⟨0, _⟩ => show win1_1.index t (0 : Fin 2) * 8000 + 1 * p.val = win1_2.index t (0 : Fin 2) * 8000 + 1 * p.val; omega
    | ⟨1, _⟩ => show win1_1.index t (1 : Fin 2) * 1 + 1 * 0 = 0; omega
  rw [h0, h1]
  rfl

/-- An index of the output array lies in point `t`'s block iff each coordinate is in the block's range. -/
theorem mem_blk (t : Fin cfg1.N) (i : S1600000x128.Idx) :
    i ∈ ((cfg1.win 2).blk t).view.set ↔ ∀ a : Fin 2, win1_2.index t a * S8000x128.size a ≤ (i a).val ∧ (i a).val < win1_2.index t a * S8000x128.size a + S8000x128.size a := by
  show i ∈ ((View.whole main_v7).slice (win1_2.rect t)).set ↔ _
  rw [View.set_slice_whole, Rect.mem_set_unit]
  exact Iff.rfl

/-- Every row lies in the block of the point `row / 8000`. -/
theorem cover (i : S1600000x128.Idx) :
    ∃ t : Fin cfg1.N, (cfg1.win 2).flush t = true ∧ i ∈ ((cfg1.win 2).blk t).view.set := by
  have hi0 : (i 0).val < 1600000 := (i 0).isLt
  have hi1 : (i 1).val < 128 := (i 1).isLt
  refine ⟨⟨(i 0).val / 8000, by rw [show cfg1.N = 200 from N_1]; omega⟩, flush1_2 _, ?_⟩
  rw [mem_blk]
  obtain ⟨-, -, -, -, e4, e5⟩ := idx_facts ⟨(i 0).val / 8000, by rw [show cfg1.N = 200 from N_1]; omega⟩
  intro a
  match a with
  | ⟨0, _⟩ => show win1_2.index _ (0 : Fin 2) * 8000 ≤ (i 0).val ∧ (i 0).val < win1_2.index _ (0 : Fin 2) * 8000 + 8000; rw [e4]; show (i 0).val / 8000 * 8000 ≤ (i 0).val ∧ (i 0).val < (i 0).val / 8000 * 8000 + 8000; omega
  | ⟨1, _⟩ => show win1_2.index _ (1 : Fin 2) * 128 ≤ (i 1).val ∧ (i 1).val < win1_2.index _ (1 : Fin 2) * 128 + 128; rw [e5]; omega

/-- The output array after the region. -/
theorem final (c : Dev nD) : (dat1 V c).arrAt 2 cfg1.N = scaled (rowsIn V c) (wIn V c) :=
  (dat1 V c).arrAt_eq_of_cover 2 _ (fun t _ => flushed_eq V c t) cover

end Cert.KernelIdeal.Scale

end
-- ==== Proof.Epilogue.lean ====
/-
  The third kernel region, read as a whole array.  Grid point t (20 of them) takes rows
  5000·t … 5000·t + 4999 of the aggregated array `a` and the whole bias vector `b`, forms
  z = a[r, j] + b[j] and writes back ½·z + ½·max(z, 0).  The 20 blocks tile the 100000 rows, so after
  the region the output array is the one function `mixed a b` of the two inputs as the region found them.
-/
import proofs.«427640_j14697378087201_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Epilogue

open Cert.KernelIdeal Cert.KernelIdeal.Gen Idealize.ShloMosaic Idealize.ShloMosaic.TcCoe Idealize.SL.Sem
open Idealize.ShloMosaic.ValueIdx Idealize.ShloMosaic.Pipeline

variable (V : (c : Dev nD) → (b : Ref sig .tc) → Buf (Elt Ideal) ((c : Thread nD τ).loc b))

/-- The aggregated rows and the bias as the region finds them, at their literal types. -/
abbrev aggIn (c : Dev nD) : FVec Ideal S100000x128 .f32 := V c main_v10
abbrev biasIn (c : Dev nD) : FVec Ideal S128 .f32 := V c main_arg4

theorem zeros2 : (![0, 0] : Fin 2 → Nat) = fun _ => 0 := funext fun a => by fin_cases a <;> rfl
theorem zeros1 : (![0] : Fin 1 → Nat) = fun _ => 0 := funext fun a => by fin_cases a; rfl

/-- The two literals of the body: one half, and zero. -/
abbrev half : EReal := Ideal.ofBits .f32 0x3F000000#32
abbrev zero : EReal := Ideal.ofBits .f32 0x00000000#32

/-- ½·z + ½·max(z, 0) with z = a[r, j] + b[j]. -/
abbrev mixed (a : FVec Ideal S100000x128 .f32) (b : FVec Ideal S128 .f32) : FVec Ideal S100000x128 .f32 :=
  fun i => half * (a i + b (ix1 (i 1))) + half * max (a i + b (ix1 (i 1))) zero

/-- The bias, cast to one row and broadcast down the block, read at an entry is the bias at the column. -/
theorem bias_apply (x1 : Vec Ideal S128 .f32) (p : Fin 5000) (q : Fin 128) :
    broadcastTo S5000x128 (shapeCast S1x128 x1 shapeCasts_S128_S1x128) broadcasts_S1x128_S5000x128 (ix2 p q) = x1 (ix1 q) :=
  (broadcastTo_1b_ab_apply _ _ p q).trans (shapeCast_a_1a_apply x1 _ 0 q)

/-- The body's arithmetic at one entry of a block. -/
theorem pay_apply (x0 : Vec Ideal S5000x128 .f32) (x1 : Vec Ideal S128 .f32) (p : Fin 5000) (q : Fin 128) :
    k2_pay1 x0 x1 (ix2 p q) = half * (x0 (ix2 p q) + x1 (ix1 q)) + half * max (x0 (ix2 p q) + x1 (ix1 q)) zero := by
  unfold k2_pay1
  rw [shapeCast_self]
  show half * (x0 (ix2 p q) + broadcastTo S5000x128 (shapeCast S1x128 x1 shapeCasts_S128_S1x128) broadcasts_S1x128_S5000x128 (ix2 p q))
      + half * max (x0 (ix2 p q) + broadcastTo S5000x128 (shapeCast S1x128 x1 shapeCasts_S128_S1x128) broadcasts_S1x128_S5000x128 (ix2 p q)) zero = _
  rw [bias_apply]

/-- The windows' index maps over the grid: the row windows move with the point, the bias window stays. -/
theorem idx_facts : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- What point `t` writes back is block `t` of `mixed` of the two input arrays. -/
theorem flushed_eq (c : Dev nD) (t : Fin cfg2.N) :
    (dat2 V c).flushed 2 t = ((cfg2.win 2).blk t).view.read (Elt Ideal) (mixed (aggIn V c) (biasIn V c)) := by
  show (cfg2.win 2).cut (grid2.coords t) ((dat2 V c).after 2 t) = _
  rw [after2_2]
  unfold out2_2
  rw [View.canon_unit_zero zeros2]
  simp only [View.ld_unit_zero (S := S5000x128) zeros2, View.ld_unit_zero (S := S128) zeros1]
  obtain ⟨e0, e1, e2, e3, e4⟩ := idx_facts t
  funext j
  obtain ⟨p, q, rfl⟩ : ∃ (p : Fin 5000) (q : Fin 128), j = ix2 p q := ⟨j 0, j 1, eq_ix2 j⟩
  refine (pay_apply (iblk2 V c 0 t) (iblk2 V c 1 t) p q).trans ?_
  have h0 : ((cfg2.win 0).blk t).view.emb (ix2 p q) = ((cfg2.win 2).blk t).view.emb (ix2 p q) := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * q.val = win2_2.index t (1 : Fin 2) * 128 + 1 * q.val; omega
  have h1 : ((cfg2.win 1).blk t).view.emb (ix1 q) = ix1 ((((cfg2.win 2).blk t).view.emb (ix2 p q)) 1) := by
    funext a; apply Fin.ext
    match a with
    | ⟨0, _⟩ => show win2_1.index t (0 : Fin 1) * 128 + 1 * q.val = win2_2.index t (1 : Fin 2) * 128 + 1 * q.val; omega
  show half * (aggIn V c (((cfg2.win 0).blk t).view.emb (ix2 p q)) + biasIn V c (((cfg2.win 1).blk t).view.emb (ix1 q)))
      + half * max (aggIn V c (((cfg2.win 0).blk t).view.emb (ix2 p q)) + biasIn V c (((cfg2.win 1).blk t).view.emb (ix1 q))) zero
    = half * (aggIn V c (((cfg2.win 2).blk t).view.emb (ix2 p q)) + biasIn V c (ix1 ((((cfg2.win 2).blk t).view.emb (ix2 p q)) 1)))
      + half * max (aggIn V c (((cfg2.win 2).blk t).view.emb (ix2 p q)) + biasIn V c (ix1 ((((cfg2.win 2).blk t).view.emb (ix2 p q)) 1))) zero
  rw [h0, h1]
  rfl

/-- An index of the output array lies in point `t`'s block iff each coordinate is in the block's range. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v11).slice (win2_2.rect t)).set ↔ _
  rw [View.set_slice_whole, Rect.mem_set_unit]
  exact Iff.rfl

/-- Every row lies in the block of the point `row / 5000`. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  refine ⟨⟨(i 0).val / 5000, by rw [show cfg2.N = 20 from N_2]; omega⟩, flush2_2 _, ?_⟩
  rw [mem_blk]
  obtain ⟨-, -, -, e3, e4⟩ := idx_facts ⟨(i 0).val / 5000, by rw [show cfg2.N = 20 from N_2]; omega⟩
  intro a
  match a with
  | ⟨0, _⟩ => show win2_2.index _ (0 : Fin 2) * 5000 ≤ (i 0).val ∧ (i 0).val < win2_2.index _ (0 : Fin 2) * 5000 + 5000; rw [e3]; show (i 0).val / 5000 * 5000 ≤ (i 0).val ∧ (i 0).val < (i 0).val / 5000 * 5000 + 5000; omega
  | ⟨1, _⟩ => show win2_2.index _ (1 : Fin 2) * 128 ≤ (i 1).val ∧ (i 1).val < win2_2.index _ (1 : Fin 2) * 128 + 128; rw [e4]; omega

/-- The output array after the region. -/
theorem final (c : Dev nD) : (dat2 V c).arrAt 2 cfg2.N = mixed (aggIn V c) (biasIn V c) :=
  (dat2 V c).arrAt_eq_of_cover 2 _ (fun t _ => flushed_eq V c t) cover

end Cert.KernelIdeal.Epilogue

end
-- ==== Proof.Take.lean ====
/-
  The host operations between the first and the second kernel region, as named functions of the
  arrays they read.  From the edge array: its first row (source ids) and second row (target ids).  From the
  source ids: the ids with negative ones counted from the end (id + 100000), as a column; which of those lie in
  0 … 99999; the rows of `h` they select (a gather, which clamps); and the taken rows: the selected row
  where the id is valid, a fill pattern elsewhere.
-/
import proofs.«427640_j14697378087201_1_alg».proof.KernelIdeal
import proofs.«427640_j14697378087201_1_alg».proof.Proof.Gen.KernelIdeal
import Idealize.ShloMosaic.PureOps.Ideal

noncomputable section

namespace Cert.KernelIdeal.Take

open Cert.KernelIdeal Cert.KernelIdeal.Gen Idealize.ShloMosaic

/-- Row 0 of the edge array: the source ids. -/
abbrev sources (e : IVec S2x1600000 32) : IVec S1600000 32 :=
  shapeCast S1600000 (extractStridedSlice S1x1600000 ![0, 0] e slices_S2x1600000_S1x1600000_0_0) shapeCasts_S1x1600000_S1600000

/-- Row 1 of the edge array: the target ids. -/
abbrev targets (e : IVec S2x1600000 32) : IVec S1600000 32 :=
  shapeCast S1600000 (extractStridedSlice S1x1600000 ![1, 0] e slices_S2x1600000_S1x1600000_1_0) shapeCasts_S1x1600000_S1600000

/-- One id with a negative value counted from the end. -/
abbrev wrap1 (s : BitVec 32) : BitVec 32 := Scalar.select (IntOp.cmpi .slt s 0#32) (IntOp.addi s 100000#32) s

/-- The ids with negative ones counted from the end, as a column. -/
abbrev wrapped (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Which ids of the column lie in 0 … 99999 (an `and` over the column's one entry per row). -/
abbrev valid (ids : IVec S1600000x1 32) : IVec S1600000 1 :=
  Host.reduce IntOp.andi
    (andi (cmpi .sge ids (broadcastInDim S1600000x1 ![] bcast_S_S1600000x1 (constantI S_ 32 0#32)))
      (cmpi .sle ids (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The rows of `h` the column of ids selects. -/
abbrev rowsOf (h : FVec Ideal S100000x128 .f32) (ids : IVec S1600000x1 32) : FVec Ideal S1600000x128 .f32 :=
  Host.gather gather_S100000x128_S1600000x1_S1600000x128_1_0_n_n_0_1_1128 h ids

/-- The taken rows: the selected row where the id is valid, the fill pattern elsewhere. -/
abbrev taken (h : FVec Ideal S100000x128 .f32) (s : IVec S1600000 32) : FVec Ideal S1600000x128 .f32 :=
  select (broadcastInDim S1600000x128 ![0] bcast_S1600000_S1600000x128_0 (valid (wrapped s)))
    (rowsOf h (wrapped s))
    (broadcastInDim S1600000x128 ![] bcast_S_S1600000x128 (constant S_ .f32 0x7FC00000#32))

end Cert.KernelIdeal.Take

end
-- ==== Proof.Whole.lean ====
/-
  The program's value with the rows fed to the scaling step left as a parameter:
      withRows R e w b = mix (scatter-add into zeros, at the target ids of e, of (R scaled by the weights w as a column)) b.
  The kernel program ends at `withRows (taken rows)`, the reference at `withRows (gathered rows)`.
-/
import proofs.«427640_j14697378087201_1_alg».proof.Proof.Scale
import proofs.«427640_j14697378087201_1_alg».proof.Proof.Epilogue
import proofs.«427640_j14697378087201_1_alg».proof.Proof.Take

noncomputable section

namespace Cert.KernelIdeal.Whole

open Cert.KernelIdeal Cert.KernelIdeal.Gen Cert.KernelIdeal.Take Idealize.ShloMosaic

/-- Mix the scatter-add (at the targets) of the scaled rows with the bias. -/
def withRows (R : FVec Ideal S1600000x128 .f32) (e : IVec S2x1600000 32) (w : FVec Ideal S1600000 .f32)
    (b : FVec Ideal S128 .f32) : FVec Ideal S100000x128 .f32 :=
  Epilogue.mixed
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 (targets e))
      (Scale.scaled R (shapeCast S1600000x1 w shapeCasts_S1600000_S1600000x1)))
    b

end Cert.KernelIdeal.Whole

end
-- ==== Proof.Fold.lean ====
/-
  The kernel program's result buffer after the run, as one function of the five argument arrays.
  The run's last boundary holds, at the result buffer, what the third region's write-backs leave; walking
  back through the boundaries: the third region mixes the aggregated rows with the bias; the aggregated rows
  are the scatter-add (into zeros, at the target ids) of the second region's output; that output is the taken
  rows scaled by the edge weights (as a column); the taken rows are read from the first region's output at the
  source ids; and the first region's output is the product x·W.  Every argument array is found as launched.
-/
import proofs.«427640_j14697378087201_1_alg».proof.Proof.Gen.KernelIdeal.Frame
import proofs.«427640_j14697378087201_1_alg».proof.Proof.Matmul
import proofs.«427640_j14697378087201_1_alg».proof.Proof.Scale
import proofs.«427640_j14697378087201_1_alg».proof.Proof.Epilogue
import proofs.«427640_j14697378087201_1_alg».proof.Proof.Take
import proofs.«427640_j14697378087201_1_alg».proof.Proof.Whole
import Idealize.ShloMosaic.Lib.StableHlo.Run

set_option maxRecDepth 16384

noncomputable section

namespace Cert.KernelIdeal.Fold

open Cert.KernelIdeal Cert.KernelIdeal.Gen Cert.KernelIdeal.Take Idealize.ShloMosaic Idealize.ShloMosaic.TcCoe Idealize.SL.Sem
open Idealize.ShloMosaic.StableHlo

/-- A buffer none of a stretch's operations writes keeps its contents. -/
macro "keeps" : tactic => `(tactic| (
  refine StableHlo.after_of_forall_not_mem _ _ (List.forall_iff_forall_mem.mp ?_)
  simp only [hostOps0, hostOps1, hostOps1_1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- Contents carried to a buffer's own type and back are the contents. -/
theorem ofBuf_toBuf {T : BufTy} (x : TRef sig T) (v : T.Contents (Elt Ideal)) : x.ofBuf (x.toBuf v) = v := by
  show cast _ (cast _ v) = v
  rw [cast_cast]
  exact cast_eq _ _

/-! ## Each host stretch, from any contents -/

section Stretches
variable (Wv : Valuation τ sig (Elt Ideal))

theorem pre_sources : StableHlo.after hostOps0 Wv (Proc.devRef .tc main_v1) = sources (Wv (Proc.devRef .tc main_arg1)) := by
  after_results; rfl
theorem pre_targets : StableHlo.after hostOps0 Wv (Proc.devRef .tc main_v3) = targets (Wv (Proc.devRef .tc main_arg1)) := by
  after_results; rfl
theorem pre_keeps_x : StableHlo.after hostOps0 Wv (Proc.devRef .tc main_arg0) = Wv (Proc.devRef .tc main_arg0) := by keeps
theorem pre_keeps_ew : StableHlo.after hostOps0 Wv (Proc.devRef .tc main_arg2) = Wv (Proc.devRef .tc main_arg2) := by keeps
theorem pre_keeps_W : StableHlo.after hostOps0 Wv (Proc.devRef .tc main_arg3) = Wv (Proc.devRef .tc main_arg3) := by keeps

set_option maxHeartbeats 2000000 in
theorem take_rows : StableHlo.after hostOps1 Wv (Proc.devRef .tc main_v5)
    = taken (Wv (Proc.devRef .tc main_v4)) (Wv (Proc.devRef .tc main_v1)) := by
  have e1 : ∀ v : (main_v1 : Ref sig .tc).ty.Contents (Elt Ideal), (TRef.of (T := ⟨S1600000, .i32⟩) main_v1).ofBuf v = v := fun _ => rfl
  have e4 : ∀ v : (main_v4 : Ref sig .tc).ty.Contents (Elt Ideal), (TRef.of (T := ⟨S100000x128, .f32⟩) main_v4).ofBuf v = v := fun _ => rfl
  have e5 : ∀ v : (⟨S1600000x128, .f32⟩ : BufTy).Contents (Elt Ideal), (TRef.of (T := ⟨S1600000x128, .f32⟩) main_v5).toBuf v = v := fun _ => rfl
  after_results_simp
  all_goals (try simp only [ofBuf_toBuf, e1, e4, e5])
theorem take_keeps_targets : StableHlo.after hostOps1 Wv (Proc.devRef .tc main_v3) = Wv (Proc.devRef .tc main_v3) := by keeps
theorem take_keeps_ew : StableHlo.after hostOps1 Wv (Proc.devRef .tc main_arg2) = Wv (Proc.devRef .tc main_arg2) := by keeps

theorem col_weights : StableHlo.after hostOps1_1 Wv (Proc.devRef .tc main_v6)
    = shapeCast S1600000x1 (Wv (Proc.devRef .tc main_arg2)) shapeCasts_S1600000_S1600000x1 := by
  after_results; rfl
theorem col_keeps_rows : StableHlo.after hostOps1_1 Wv (Proc.devRef .tc main_v5) = Wv (Proc.devRef .tc main_v5) := by keeps
theorem col_keeps_targets : StableHlo.after hostOps1_1 Wv (Proc.devRef .tc main_v3) = Wv (Proc.devRef .tc main_v3) := by keeps

theorem aggregate : StableHlo.after hostOps2 Wv (Proc.devRef .tc main_v10)
    = Host.scatterAdd scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 (Wv (Proc.devRef .tc main_v3)))
        (Wv (Proc.devRef .tc main_v7)) := by
  after_results

end Stretches

/-! ## The walk back from the last boundary -/

variable (m : (ℓ : Loc nD τ sig) → Buf (Elt Ideal) ℓ) (ρ : Dev nD → PrngReg)

/-- The five argument arrays as launched, at their literal types. -/
abbrev argX (c : Dev nD) : FVec Ideal S100000x128 .f32 := m ((c : Thread nD τ).loc main_arg0)
abbrev argE (c : Dev nD) : IVec S2x1600000 32 := m ((c : Thread nD τ).loc main_arg1)
abbrev argEw (c : Dev nD) : FVec Ideal S1600000 .f32 := m ((c : Thread nD τ).loc main_arg2)
abbrev argW (c : Dev nD) : FVec Ideal S128x128 .f32 := m ((c : Thread nD τ).loc main_arg3)
abbrev argB (c : Dev nD) : FVec Ideal S128 .f32 := m ((c : Thread nD τ).loc main_arg4)

/-- The whole program's value: mix (scatter-add at the targets of (taken rows of x·W at the sources, scaled by the
    weights)) with the bias. -/
abbrev value (c : Dev nD) : FVec Ideal S100000x128 .f32 :=
  Whole.withRows (taken (Matmul.product (argX m c) (argW m c)) (sources (argE m c))) (argE m c) (argEw m c) (argB m c)

/-- The first region finds x and W as launched. -/
theorem x_at_1 (c : Dev nD) : Matmul.xIn (V1 m ρ) c = argX m c := pre_keeps_x (W0 m ρ c)
theorem W_at_1 (c : Dev nD) : Matmul.wIn (V1 m ρ) c = argW m c := pre_keeps_W (W0 m ρ c)

/-- After the first region its output buffer holds the product. -/
theorem h_at_2 (c : Dev nD) : W2 m ρ c (Proc.devRef .tc main_v4) = Matmul.product (argX m c) (argW m c) :=
  (W2_arr m ρ c 2).trans ((Matmul.final (V1 m ρ) c).trans (congrArg₂ Matmul.product (x_at_1 m ρ c) (W_at_1 m ρ c)))

theorem sources_at_2 (c : Dev nD) : W2 m ρ c (Proc.devRef .tc main_v1) = sources (argE m c) :=
  (W2_of_ne m ρ c main_v1 (by decide)).trans (pre_sources (W0 m ρ c))
theorem targets_at_2 (c : Dev nD) : W2 m ρ c (Proc.devRef .tc main_v3) = targets (argE m c) :=
  (W2_of_ne m ρ c main_v3 (by decide)).trans (pre_targets (W0 m ρ c))
theorem ew_at_2 (c : Dev nD) : W2 m ρ c (Proc.devRef .tc main_arg2) = argEw m c :=
  (W2_of_ne m ρ c main_arg2 (by decide)).trans (pre_keeps_ew (W0 m ρ c))

/-- The second region finds the taken rows and the weight column. -/
theorem rows_at_4 (c : Dev nD) : Scale.rowsIn (V4 m ρ) c = taken (Matmul.product (argX m c) (argW m c)) (sources (argE m c)) :=
  (col_keeps_rows (W3 m ρ c)).trans ((take_rows (W2 m ρ c)).trans (congrArg₂ taken (h_at_2 m ρ c) (sources_at_2 m ρ c)))
theorem weights_at_4 (c : Dev nD) : Scale.wIn (V4 m ρ) c = shapeCast S1600000x1 (argEw m c) shapeCasts_S1600000_S1600000x1 :=
  (col_weights (W3 m ρ c)).trans (congrArg (shapeCast S1600000x1 · shapeCasts_S1600000_S1600000x1)
    ((take_keeps_ew (W2 m ρ c)).trans (ew_at_2 m ρ c)))

/-- After the second region its output buffer holds the scaled rows; the targets are untouched. -/
theorem msg_at_5 (c : Dev nD) : W5 m ρ c (Proc.devRef .tc main_v7)
    = Scale.scaled (taken (Matmul.product (argX m c) (argW m c)) (sources (argE m c)))
        (shapeCast S1600000x1 (argEw m c) shapeCasts_S1600000_S1600000x1) :=
  (W5_arr m ρ c 2).trans ((Scale.final (V4 m ρ) c).trans (congrArg₂ Scale.scaled (rows_at_4 m ρ c) (weights_at_4 m ρ c)))
theorem targets_at_5 (c : Dev nD) : W5 m ρ c (Proc.devRef .tc main_v3) = targets (argE m c) :=
  (W5_of_ne m ρ c main_v3 (by decide)).trans ((col_keeps_targets (W3 m ρ c)).trans
    ((take_keeps_targets (W2 m ρ c)).trans (targets_at_2 m ρ c)))

/-- The third region finds the aggregated rows and the bias as launched. -/
theorem agg_at_6 (c : Dev nD) : Epilogue.aggIn (V6 m ρ) c
    = Host.scatterAdd scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 (targets (argE m c)))
        (Scale.scaled (taken (Matmul.product (argX m c) (argW m c)) (sources (argE m c)))
          (shapeCast S1600000x1 (argEw m c) shapeCasts_S1600000_S1600000x1)) :=
  by
  show StableHlo.after hostOps2 (W5 m ρ c) (Proc.devRef .tc main_v10) = _
  rw [aggregate, targets_at_5, msg_at_5]
theorem bias_at_6 (c : Dev nD) : Epilogue.biasIn (V6 m ρ) c = argB m c :=
  ((W7_arr m ρ c 1).trans (((dat2 (V6 m ρ) c).arrAt_in 1 rfl _).trans (A_eq2 (V6 m ρ) c 1))).symm.trans (W7_main_arg4 m ρ c)

/-- THE RESULT BUFFER at the last boundary is the program's value. -/
theorem result_eq (c : Dev nD) : W7 m ρ c (Proc.devRef .tc main_v11) = value m c := by
  refine (W7_arr m ρ c 2).trans ((Epilogue.final (V6 m ρ) c).trans ?_)
  rw [agg_at_6, bias_at_6]
  rfl

end Cert.KernelIdeal.Fold

end
-- ==== Proof.Mask.lean ====
/-
  Where every source id lies in −100000 … 99999, the taken rows are the gathered rows.
  An id s in that range, with a negative one counted from the end (s + 100000, no wrap-around of the 32-bit word),
  lies in 0 … 99999; so both comparisons of the validity test hold at every row, their `and` over the
  column's single entry is one, and the select keeps the gathered row everywhere: the fill pattern is never read.
-/
import proofs.«427640_j14697378087201_1_alg».proof.Proof.Take
import Idealize.ShloMosaic.Lib.Affine
import Idealize.ShloMosaic.Lib.ReduceAll
import Idealize.ShloMosaic.Lib.Pipeline.Value
import Idealize.ShloMosaic.Lib.ValueIdx

noncomputable section

namespace Cert.KernelIdeal.Mask

open Cert.KernelIdeal Cert.KernelIdeal.Gen Cert.KernelIdeal.Take Idealize.ShloMosaic Idealize.ShloMosaic.ValueIdx

/-- A left fold of `and` over ones, from one, is one. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduction by `and` of an array of ones, from one, is one at every index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_ones x hx _

theorem bmod32 {n : Int} (h₁ : -2 ^ 31 ≤ n) (h₂ : n < 2 ^ 31) : n.bmod (2 ^ 32) = n :=
  Int.bmod_eq_of_le (by omega) (by omega)

/-- An id in −100000 … 99999, counted from the end when negative, lies in 0 … 99999. -/
theorem wrap1_valid (s : BitVec 32) (h1 : (-100000 : Int) ≤ s.toInt) (h2 : s.toInt < 100000) :
    IntOp.cmpi .sge (wrap1 s) 0#32 = 1#1 ∧ IntOp.cmpi .sle (wrap1 s) 99999#32 = 1#1 := by
  have z : (0#32 : BitVec 32).toInt = 0 := by decide
  have n : (99999#32 : BitVec 32).toInt = 99999 := by decide
  rw [IntOp.cmpi_sge, IntOp.cmpi_sle, z, n]
  by_cases hs : s.toInt < 0
  · have hc : IntOp.cmpi .slt s 0#32 = 1#1 := IntOp.cmpi_slt.2 (by rw [z]; exact hs)
    have ha : (IntOp.addi s 100000#32).toInt = s.toInt + 100000 := by
      rw [IntOp.addi, BitVec.toInt_add, show (100000#32 : BitVec 32).toInt = 100000 from by decide]
      exact bmod32 (by omega) (by omega)
    show 0 ≤ (Scalar.select (IntOp.cmpi .slt s 0#32) (IntOp.addi s 100000#32) s).toInt
      ∧ (Scalar.select (IntOp.cmpi .slt s 0#32) (IntOp.addi s 100000#32) s).toInt ≤ 99999
    rw [hc, select_one, ha]
    omega
  · have hc : IntOp.cmpi .slt s 0#32 = 0#1 :=
      eq_zero_of_ne_one fun h => hs (by have := IntOp.cmpi_slt.1 h; rwa [z] at this)
    show 0 ≤ (Scalar.select (IntOp.cmpi .slt s 0#32) (IntOp.addi s 100000#32) s).toInt
      ∧ (Scalar.select (IntOp.cmpi .slt s 0#32) (IntOp.addi s 100000#32) s).toInt ≤ 99999
    rw [hc, select_zero]
    omega

/-- The column of counted ids, read at a row. -/
theorem wrapped_apply (s : IVec S1600000 32) (i : S1600000x1.Idx) : wrapped s i = wrap1 (s (ix1 (i 0))) :=
  (broadcastInDim_apply _ _ _ i (ix1 (i 0)) fun a => by
    match a with
    | ⟨0, _⟩ => show (i 0).val = if (1600000 : Nat) = 1 then 0 else (i 0).val; rw [if_neg (by decide)]).trans rfl

/-- Every row's id is valid. -/
theorem valid_all (s : IVec S1600000 32)
    (hs : ∀ e : S1600000.Idx, (-100000 : Int) ≤ (s e).toInt ∧ (s e).toInt < 100000) (e : S1600000.Idx) :
    valid (wrapped s) e = 1#1 := by
  refine reduce_andi_ones _ _ _ _ (fun i => ?_) (fun _ => rfl) e
  obtain ⟨g1, g2⟩ := wrap1_valid (s (ix1 (i 0))) (hs _).1 (hs _).2
  show IntOp.andi (IntOp.cmpi .sge (wrapped s i) 0#32) (IntOp.cmpi .sle (wrapped s i) 99999#32) = 1#1
  rw [wrapped_apply]
  exact IntOp.andi_eq_one.2 ⟨g1, g2⟩

/-- So the taken rows are the gathered rows. -/
theorem taken_eq_rows (h : FVec Ideal S100000x128 .f32) (s : IVec S1600000 32)
    (hs : ∀ e : S1600000.Idx, (-100000 : Int) ≤ (s e).toInt ∧ (s e).toInt < 100000) :
    taken h s = rowsOf h (wrapped s) := by
  funext i
  have hm : broadcastInDim S1600000x128 ![0] bcast_S1600000_S1600000x128_0 (valid (wrapped s)) i = 1#1 :=
    (broadcastInDim_apply _ _ _ i (ix1 (i 0)) fun a => by
      match a with
      | ⟨0, _⟩ => show (i 0).val = if (1600000 : Nat) = 1 then 0 else (i 0).val; rw [if_neg (by decide)]).trans (valid_all s hs _)
  show Scalar.select (broadcastInDim S1600000x128 ![0] bcast_S1600000_S1600000x128_0 (valid (wrapped s)) i)
    (rowsOf h (wrapped s) i) _ = _
  rw [hm, select_one]

end Cert.KernelIdeal.Mask

end
-- ==== Proof.PreRange.lean ====
/-
  What the precondition says about the source ids.  The precondition is an `and` of five tests; the last is
  "every entry of row 0 of the edge array is ≥ −100000 and < 100000" (signed 32-bit comparisons, reduced by
  `and` over all 1600000 entries).  The whole being one, that last reduction is one, so each entry's two
  comparisons hold: as integers, −100000 ≤ id < 100000.
-/
import proofs.«427640_j14697378087201_1_alg».proof.Pre_finite_inputs
import proofs.«427640_j14697378087201_1_alg».proof.Proof.Gen.Pre_finite_inputs
import Idealize.ShloMosaic.PureOps.Ideal
import Idealize.ShloMosaic.Lib.Affine
import Idealize.ShloMosaic.Lib.ReduceAll
import Idealize.ShloMosaic.Lib.ValueIdx

noncomputable section

namespace Cert.Pre_finite_inputs.Range

open Cert.Pre_finite_inputs Cert.Pre_finite_inputs.Gen Idealize.ShloMosaic

instance : Subsingleton S_.Idx := ⟨fun a b => funext fun d => d.elim0⟩

/-- Row 0 of the edge array, as the precondition spells it. -/
abbrev ids (e : IVec S2x1600000 32) : IVec S1600000 32 :=
  shapeCast S1600000 (extractStridedSlice S1x1600000 ![0, 0] e slices_S2x1600000_S1x1600000_0_0) shapeCasts_S1x1600000_S1600000

/-- Under the precondition every source id is, as an integer, in −100000 … 99999. -/
theorem ids_in_range (x0 : FVec Ideal S100000x128 .f32) (e : IVec S2x1600000 32) (x2 : FVec Ideal S1600000 .f32)
    (x3 : FVec Ideal S128x128 .f32) (x4 : FVec Ideal S128 .f32)
    (h : Cert.Pre_finite_inputs.fn (F := Ideal) x0 e x2 x3 x4 = fun _ => 1#1) (i : S1600000.Idx) :
    (-100000 : Int) ≤ (ids e i).toInt ∧ (ids e i).toInt < 100000 := by
  have h0 := congrFun h ValueIdx.ix0
  dsimp only [Cert.Pre_finite_inputs.fn, Cert.Pre_finite_inputs.fn_part1] at h0
  have hall := (IntOp.andi_eq_one.1 h0).2
  have hi := Host.reduce_andi_all _ _ _ _ _ hall i
  obtain ⟨ge, lt⟩ := IntOp.andi_eq_one.1 hi
  have ge' := IntOp.cmpi_sge.1 ge
  have lt' := IntOp.cmpi_slt.1 lt
  have a : (4294867296#32 : BitVec 32).toInt = -100000 := by decide
  have b : (100000#32 : BitVec 32).toInt = 100000 := by decide
  exact ⟨a ▸ ge', b ▸ lt'⟩

end Cert.Pre_finite_inputs.Range

end
-- ==== Proof.RefSide.lean ====
/-
  The reference program's result is the same function of the arguments as the kernel program's, once the
  taken rows are the gathered rows.  Stage by stage: the reference's product is Σ_k x[r, k]·W[k, j], entry by
  entry the kernel's `product`; its gather reads that product at the same column of counted ids; its messages are
  each gathered entry times the edge's weight (the weight broadcast along the row, the kernel's weight read from a
  one-column array: the same number); its scatter-add starts from the same zeros at the same target ids; and its last
  stages are ½·z + ½·max(z, 0) with z = aggregated + bias, in the kernel's order of operations.
-/
import proofs.«427640_j14697378087201_1_alg».proof.Proof.Gen.ReferenceIdeal.Read
import proofs.«427640_j14697378087201_1_alg».proof.Proof.Matmul
import proofs.«427640_j14697378087201_1_alg».proof.Proof.Scale
import proofs.«427640_j14697378087201_1_alg».proof.Proof.Epilogue
import proofs.«427640_j14697378087201_1_alg».proof.Proof.Take
import proofs.«427640_j14697378087201_1_alg».proof.Proof.Whole
import Idealize.ShloMosaic.Lib.Pipeline.Value
import Idealize.ShloMosaic.Lib.ValueIdx

set_option maxRecDepth 16384

noncomputable section

namespace Cert.Bridge

open Idealize.ShloMosaic Idealize.ShloMosaic.ValueIdx
open Cert.ReferenceIdeal.Read
open Cert.KernelIdeal (Matmul.product Matmul.lrow Matmul.rcol Scale.scaled Epilogue.mixed Take.sources Take.targets Take.wrapped Take.rowsOf)

abbrev SN : Shape := ⟨2, ![100000, 128]⟩
abbrev SE : Shape := ⟨2, ![2, 1600000]⟩
abbrev SW : Shape := ⟨1, ![1600000]⟩
abbrev SD : Shape := ⟨2, ![128, 128]⟩
abbrev SB : Shape := ⟨1, ![128]⟩

variable (x0 : FVec Ideal SN .f32) (x1 : IVec SE 32) (x2 : FVec Ideal SW .f32) (x3 : FVec Ideal SD .f32) (x4 : FVec Ideal SB .f32)

/-- The reference's product, entry by entry, is the kernel's. -/
theorem product_eq : val_main_v0 (F := Ideal) x0 x3 = Cert.KernelIdeal.Matmul.product x0 x3 := by
  funext i
  rw [val_main_v0_apply]
  refine Finset.sum_congr rfl fun k _ => ?_
  have el : lidx_main_v0 i k = Cert.KernelIdeal.Matmul.lrow i k := funext fun a => by
    match a with
    | ⟨0, _⟩ => rfl
    | ⟨1, _⟩ => rfl
  have er : ridx_main_v0 i k = Cert.KernelIdeal.Matmul.rcol i k := funext fun a => by
    match a with
    | ⟨0, _⟩ => rfl
    | ⟨1, _⟩ => rfl
  rw [el, er]

/-- The reference's gathered rows are the kernel's: the same gather of the same product at the same ids. -/
theorem gathered_eq : val_main_v11 (F := Ideal) x0 x1 x3
    = Cert.KernelIdeal.Take.rowsOf (Cert.KernelIdeal.Matmul.product x0 x3) (Cert.KernelIdeal.Take.wrapped (Cert.KernelIdeal.Take.sources x1)) := by
  unfold val_main_v11
  rw [product_eq]
  rfl

/-- A vector cast to one column, read at a row, is the vector's entry. -/
theorem column_apply (p : Fin 1600000) :
    shapeCast (⟨2, ![1600000, 1]⟩ : Shape) x2 Cert.KernelIdeal.Facts₀.shapeCasts_S1600000_S1600000x1 (ix2 p (0 : Fin 1)) = x2 (ix1 p) :=
  shapeCast_apply x2 _ _ _ (by
    rw [Shape.rowMajor_val_two, Shape.rowMajor_val_one]
    show p.val = p.val * 1 + 0
    omega)

/-- The reference's messages are the kernel's scaled rows. -/
theorem messages_eq : val_main_v14 (F := Ideal) x0 x1 x2 x3
    = Cert.KernelIdeal.Scale.scaled (Cert.KernelIdeal.Take.rowsOf (Cert.KernelIdeal.Matmul.product x0 x3) (Cert.KernelIdeal.Take.wrapped (Cert.KernelIdeal.Take.sources x1)))
        (shapeCast (⟨2, ![1600000, 1]⟩ : Shape) x2 Cert.KernelIdeal.Facts₀.shapeCasts_S1600000_S1600000x1) := by
  funext i
  rw [val_main_v14_apply, val_main_v13_apply, val_main_v12_apply, gathered_eq]
  have e : idx_main_v12 (idx_main_v13 i) = ix1 (i 0) := funext fun a => by
    match a with
    | ⟨0, _⟩ => rfl
  rw [e]
  exact congrArg (_ * ·) (column_apply x2 (i 0)).symm

/-- The reference's aggregated rows are the kernel's: the same scatter-add of the same messages. -/
theorem aggregated_eq : val_main_v17 (F := Ideal) x0 x1 x2 x3
    = Host.scatterAdd Cert.KernelIdeal.scatter_S100000x128_S1600000x1_S1600000x128_1_0_0_1
        (broadcastInDim Cert.KernelIdeal.S100000x128 ![] Cert.KernelIdeal.Facts₀.bcast_S_S100000x128 (constant (F := Ideal) Cert.KernelIdeal.S_ .f32 0x00000000#32))
        (broadcastInDim Cert.KernelIdeal.S1600000x1 ![0] Cert.KernelIdeal.Facts₀.bcast_S1600000_S1600000x1_0 (Cert.KernelIdeal.Take.targets x1))
        (Cert.KernelIdeal.Scale.scaled (Cert.KernelIdeal.Take.rowsOf (Cert.KernelIdeal.Matmul.product x0 x3) (Cert.KernelIdeal.Take.wrapped (Cert.KernelIdeal.Take.sources x1)))
          (shapeCast (⟨2, ![1600000, 1]⟩ : Shape) x2 Cert.KernelIdeal.Facts₀.shapeCasts_S1600000_S1600000x1)) := by
  unfold val_main_v17
  rw [messages_eq]
  rfl

/-- The reference's result is the program's value at the gathered rows. -/
theorem result_eq : val_main_v26 (F := Ideal) x0 x1 x2 x3 x4
    = Cert.KernelIdeal.Whole.withRows
        (Cert.KernelIdeal.Take.rowsOf (Cert.KernelIdeal.Matmul.product x0 x3) (Cert.KernelIdeal.Take.wrapped (Cert.KernelIdeal.Take.sources x1)))
        x1 x2 x4 := by
  funext i
  rw [val_main_v26_apply, val_main_v22_apply, val_main_v25_apply, val_main_v23_apply, val_main_v20_apply,
    val_main_v21_apply, val_main_v24_apply, val_main_call0_v0_apply, val_main_cst_1_apply, val_main_cst_2_apply,
    val_main_call0_cst_apply, val_main_v19_apply, val_main_v18_apply, aggregated_eq]
  have e : idx_main_v18 (idx_main_v19 i) = ix1 (i 1) := funext fun a => by
    match a with
    | ⟨0, _⟩ => rfl
  rw [e]
  rfl

end Cert.Bridge

end
-- ==== Proof.lean ====
/-
  Both programs compute, from node features x, an edge array (source ids in row 0, target ids in row 1), edge weights
  w, a weight matrix W and a bias b:
      h = x·W;   msg[e, ·] = h[src e, ·] · w[e];   agg[n, ·] = Σ_{e : dst e = n} msg[e, ·];   z = agg + b;
      y = ½·z + ½·max(z, 0).
  The kernel program does the product, the scaling and the last line in three tiled kernel regions and the row lookup
  and the scatter-add in between on the host; the reference does everything on the host.  Over the extended reals
  the kernel's bf16 roundings are the identity and its tiles reassemble to the whole arrays, so the two differ in one
  place only: a source id outside the array's range is clamped by the reference's lookup and replaced by a fill pattern
  by the kernel's.  The precondition keeps every source id a valid index (−100000 ≤ id < 100000, a negative id counted
  from the end by both programs alike), and there the two results are one function of the arguments.  The scatter-add is
  applied by both to the same targets and never opened.  The float inputs' finiteness is not used.
-/
import proofs.«427640_j14697378087201_1_alg».proof.Defs
import proofs.«427640_j14697378087201_1_alg».proof.Proof.Gen.Kernel
import proofs.«427640_j14697378087201_1_alg».proof.Proof.Gen.Kernel.Frame
import proofs.«427640_j14697378087201_1_alg».proof.Proof.Gen.KernelIdeal
import proofs.«427640_j14697378087201_1_alg».proof.Proof.Gen.KernelIdeal.Frame
import proofs.«427640_j14697378087201_1_alg».proof.Proof.Gen.ReferenceIdeal
import proofs.«427640_j14697378087201_1_alg».proof.Proof.Gen.Pre_finite_inputs
import proofs.«427640_j14697378087201_1_alg».proof.Proof.Gen.ReferenceIdeal.Run
import proofs.«427640_j14697378087201_1_alg».proof.Proof.Gen.ReferenceIdeal.Read
import proofs.«427640_j14697378087201_1_alg».proof.Proof.KernelRun
import proofs.«427640_j14697378087201_1_alg».proof.Proof.Fold
import proofs.«427640_j14697378087201_1_alg».proof.Proof.Mask
import proofs.«427640_j14697378087201_1_alg».proof.Proof.PreRange
import proofs.«427640_j14697378087201_1_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments. -/
theorem frame_kernel : Cert.frame_Kernel := fun m ρ _ => Cert.Kernel.Gen.frame m ρ

/-- So does the kernel program over the extended reals. -/
theorem frame_kernel_ideal : Cert.frame_KernelIdeal := fun m ρ _ => Cert.KernelIdeal.Gen.frame m ρ

/-- And the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel program was read over the extended reals. -/
theorem preserves : Cert.preserves_Kernel_KernelIdeal := trivial

/-- From agreeing arguments with valid source ids both programs end at the same result array. -/
theorem algebraic : Cert.algebraic_KernelIdeal_ReferenceIdeal := by
  intro m ρ m' ρ' hpre hagree
  refine ⟨fun c => Cert.KernelIdeal.Fold.value m c, ?_, ?_⟩
  · exact (θ_run Cert.KernelIdeal.defs _ _).mono
      (fun r h c => ⟨(h c).1.trans (Cert.KernelIdeal.Fold.result_eq m ρ c), (h c).2⟩)
      (Cert.KernelIdeal.Gen.run_result m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v26_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))).trans ?_
    rw [(hagree c).1, (hagree c).2.1, (hagree c).2.2.1, (hagree c).2.2.2.1, (hagree c).2.2.2.2]
    refine (Cert.Bridge.result_eq (Cert.KernelIdeal.Fold.argX m c) (Cert.KernelIdeal.Fold.argE m c)
      (Cert.KernelIdeal.Fold.argEw m c) (Cert.KernelIdeal.Fold.argW m c) (Cert.KernelIdeal.Fold.argB m c)).trans ?_
    have hp : Cert.Pre_finite_inputs.fn (F := Ideal) (Cert.KernelIdeal.Fold.argX m c) (Cert.KernelIdeal.Fold.argE m c)
        (Cert.KernelIdeal.Fold.argEw m c) (Cert.KernelIdeal.Fold.argW m c) (Cert.KernelIdeal.Fold.argB m c) = fun _ => 1#1 := hpre c
    have hs := Cert.Pre_finite_inputs.Range.ids_in_range (Cert.KernelIdeal.Fold.argX m c) (Cert.KernelIdeal.Fold.argE m c)
      (Cert.KernelIdeal.Fold.argEw m c) (Cert.KernelIdeal.Fold.argW m c) (Cert.KernelIdeal.Fold.argB m c) hp
    have hm := Cert.KernelIdeal.Mask.taken_eq_rows
      (Cert.KernelIdeal.Matmul.product (Cert.KernelIdeal.Fold.argX m c) (Cert.KernelIdeal.Fold.argW m c))
      (Cert.KernelIdeal.Take.sources (Cert.KernelIdeal.Fold.argE m c)) hs
    exact (congrArg (fun R => Cert.KernelIdeal.Whole.withRows R (Cert.KernelIdeal.Fold.argE m c)
      (Cert.KernelIdeal.Fold.argEw m c) (Cert.KernelIdeal.Fold.argB m c)) hm).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
